-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x256 .f32) (main_arg3 : FVec F S256 .f32) (main_arg4 : FVec F S256x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S50000x256 : Shape := ⟨2, ![50000, 256]⟩
abbrev S5000x128 : Shape := ⟨2, ![5000, 128]⟩
abbrev S5000x256 : Shape := ⟨2, ![5000, 256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩

abbrev nBuf : Space → Nat
  | .hbm => 129
  | .vmem => 10
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S256x128, .f32⟩
  | 5 => ⟨S128, .f32⟩
  | 6 => ⟨S50000x256, .f32⟩
  | 7 => ⟨S50000, .i32⟩
  | 8 => ⟨S1x800000, .i32⟩
  | 9 => ⟨S800000, .i32⟩
  | 10 => ⟨S850000, .i32⟩
  | 11 => ⟨S1x800000, .i32⟩
  | 12 => ⟨S800000, .i32⟩
  | 13 => ⟨S850000, .i32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x256, .f32⟩
  | 56 => ⟨S850000x1, .f32⟩
  | 57 => ⟨S850000x256, .f32⟩
  | 58 => ⟨S850000x256, .f32⟩
  | 59 => ⟨S_, .f32⟩
  | 60 => ⟨S50000x256, .f32⟩
  | 61 => ⟨S850000x1, .i32⟩
  | 62 => ⟨S50000x256, .f32⟩
  | 63 => ⟨S1x256, .f32⟩
  | 64 => ⟨S50000x256, .f32⟩
  | 65 => ⟨S50000x256, .f32⟩
  | 66 => ⟨S_, .f32⟩
  | 67 => ⟨S50000x256, .f32⟩
  | 68 => ⟨S50000x256, .f32⟩
  | 69 => ⟨S50000x128, .f32⟩
  | 70 => ⟨S50000, .i32⟩
  | 71 => ⟨S1x800000, .i32⟩
  | 72 => ⟨S800000, .i32⟩
  | 73 => ⟨S850000, .i32⟩
  | 74 => ⟨S1x800000, .i32⟩
  | 75 => ⟨S800000, .i32⟩
  | 76 => ⟨S850000, .i32⟩
  | 77 => ⟨S_, .f32⟩
  | 78 => ⟨S850000, .f32⟩
  | 79 => ⟨S_, .f32⟩
  | 80 => ⟨S50000, .f32⟩
  | 81 => ⟨S850000x1, .i32⟩
  | 82 => ⟨S50000, .f32⟩
  | 83 => ⟨S_, .f32⟩
  | 84 => ⟨S50000, .f32⟩
  | 85 => ⟨S50000, .i1⟩
  | 86 => ⟨S50000, .f32⟩
  | 87 => ⟨S_, .f32⟩
  | 88 => ⟨S_, .f32⟩
  | 89 => ⟨S50000, .f32⟩
  | 90 => ⟨S50000, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000, .f32⟩
  | 109 => ⟨S850000, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000x128, .f32⟩
  | 119 => ⟨S850000x1, .f32⟩
  | 120 => ⟨S850000x128, .f32⟩
  | 121 => ⟨S850000x128, .f32⟩
  | 122 => ⟨S_, .f32⟩
  | 123 => ⟨S50000x128, .f32⟩
  | 124 => ⟨S850000x1, .i32⟩
  | 125 => ⟨S50000x128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x128, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S5000x128_S128x256_S5000x256_1_0_0_1_n_n_wf : DotDims.WF S5000x128 S128x256 S5000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S50000x256 : Shape := ⟨2, ![50000, 256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩

abbrev nBuf : Space → Nat
  | .hbm => 129
  | .vmem => 0
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S256x128, .f32⟩
  | 5 => ⟨S128, .f32⟩
  | 6 => ⟨S50000x256, .f32⟩
  | 7 => ⟨S50000, .i32⟩
  | 8 => ⟨S1x800000, .i32⟩
  | 9 => ⟨S800000, .i32⟩
  | 10 => ⟨S850000, .i32⟩
  | 11 => ⟨S1x800000, .i32⟩
  | 12 => ⟨S800000, .i32⟩
  | 13 => ⟨S850000, .i32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x256, .f32⟩
  | 56 => ⟨S850000x1, .f32⟩
  | 57 => ⟨S850000x256, .f32⟩
  | 58 => ⟨S850000x256, .f32⟩
  | 59 => ⟨S_, .f32⟩
  | 60 => ⟨S50000x256, .f32⟩
  | 61 => ⟨S850000x1, .i32⟩
  | 62 => ⟨S50000x256, .f32⟩
  | 63 => ⟨S1x256, .f32⟩
  | 64 => ⟨S50000x256, .f32⟩
  | 65 => ⟨S50000x256, .f32⟩
  | 66 => ⟨S_, .f32⟩
  | 67 => ⟨S50000x256, .f32⟩
  | 68 => ⟨S50000x256, .f32⟩
  | 69 => ⟨S50000x128, .f32⟩
  | 70 => ⟨S50000, .i32⟩
  | 71 => ⟨S1x800000, .i32⟩
  | 72 => ⟨S800000, .i32⟩
  | 73 => ⟨S850000, .i32⟩
  | 74 => ⟨S1x800000, .i32⟩
  | 75 => ⟨S800000, .i32⟩
  | 76 => ⟨S850000, .i32⟩
  | 77 => ⟨S_, .f32⟩
  | 78 => ⟨S850000, .f32⟩
  | 79 => ⟨S_, .f32⟩
  | 80 => ⟨S50000, .f32⟩
  | 81 => ⟨S850000x1, .i32⟩
  | 82 => ⟨S50000, .f32⟩
  | 83 => ⟨S_, .f32⟩
  | 84 => ⟨S50000, .f32⟩
  | 85 => ⟨S50000, .i1⟩
  | 86 => ⟨S50000, .f32⟩
  | 87 => ⟨S_, .f32⟩
  | 88 => ⟨S_, .f32⟩
  | 89 => ⟨S50000, .f32⟩
  | 90 => ⟨S50000, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000, .f32⟩
  | 109 => ⟨S850000, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000x128, .f32⟩
  | 119 => ⟨S850000x1, .f32⟩
  | 120 => ⟨S850000x128, .f32⟩
  | 121 => ⟨S850000x128, .f32⟩
  | 122 => ⟨S_, .f32⟩
  | 123 => ⟨S50000x128, .f32⟩
  | 124 => ⟨S850000x1, .i32⟩
  | 125 => ⟨S50000x128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x256_S50000x256_1_0_0_1_n_n_wf : DotDims.WF S50000x128 S128x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Gcn.lean ====
/-
  The function both programs compute: a two-layer graph convolution over a fixed edge list.

  An edge list `e : i32[2, 800000]` names, per edge, a source node (row 0) and a target node (row 1) among 50000
  nodes; every node also gets a self loop, so the lists `srcIds e` and `dstIds e` have 850000 entries. The degree of a
  node is the number of list entries that target it (a scatter-add of ones), `invSqrtDegree` its inverse square root
  where the degree is positive and zero elsewhere, and the weight of list entry `k` is the product of `invSqrtDegree` at
  its two ends. One layer takes node features `y`, gathers the source's row for every list entry, scales it by the entry's
  weight and scatter-adds it into the target's row (`aggregate…`), then adds a bias row; the first layer ends in a
  rectifier. The whole function is
      `layer2 (dense2 (layer1 (dense1 x W1) e b1) W2) e b2`
  with `dense1`, `dense2` the plain matrix products. Everything but the two products is carried here as named
  functions that are never opened: the two programs apply the very same operations around their products, so only the
  products have to be compared (Proof/GcnDense.lean reads a product at an entry as a sum over the contracted coordinate).
-/
import proofs.«173897_j25778393710796_1_alg».proof.ReferenceIdeal
import proofs.«173897_j25778393710796_1_alg».proof.Proof.Gen.ReferenceIdeal
import Idealize.ShloMosaic.PureOps.Ideal.Laws
import Idealize.ShloMosaic.Lib.ValueIdx

noncomputable section

namespace Cert.Gcn

open Cert.ReferenceIdeal Cert.ReferenceIdeal.Gen Idealize.ShloMosaic Idealize.ShloMosaic.TcCoe

variable {F : FTy → Type} [FloatOps F]

/-! ## The index side: list entries, degrees, weights -/

/-- The source node of every list entry: the edges' sources, then each node once (its self loop). -/
def srcIds (e : IVec S2x800000 32) : IVec S850000 32 :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The target node of every list entry: the edges' targets, then each node once. -/
def dstIds (e : IVec S2x800000 32) : IVec S850000 32 :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A negative node id counts from the end: 50000 is added to it. -/
def wrapIds (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

/-- The number of list entries that target each node, as a float: ones scatter-added into zeros. -/
def degree (e : IVec S2x800000 32) : FVec F S50000 .f32 :=
  Host.scatterAdd scatter_S50000_S850000x1_S850000_n_0_0_1 (broadcastInDim S50000 ![] bcast_S_S50000 (constant S_ .f32 0x00000000#32))
    (broadcastInDim S850000x1 ![0] bcast_S850000_S850000x1_0 (dstIds e)) (broadcastInDim S850000 ![] bcast_S_S850000 (constant S_ .f32 0x3F800000#32))

/-- `degree ^ (-1/2)` where the degree is positive, zero elsewhere. -/
def invSqrtDegree (e : IVec S2x800000 32) : FVec F S50000 .f32 :=
  select (cmpf (F := F) .ogt (degree e) (broadcastInDim S50000 ![] bcast_S_S50000 (constant S_ .f32 0x00000000#32)))
    (Host.rsqrt (degree e)) (broadcastInDim S50000 ![] bcast_S_S50000 (constant S_ .f32 0x00000000#32))

/-- The weight of every list entry: `invSqrtDegree` at its source times `invSqrtDegree` at its target. -/
def edgeWeight (e : IVec S2x800000 32) : FVec F S850000 .f32 :=
  mulf (Host.gather gather_S50000_S850000x1_S850000_n_0_n_n_0_1_1 (invSqrtDegree (F := F) e) (broadcastInDim S850000x1 ![0] bcast_S850000_S850000x1_0 (wrapIds (srcIds e))))
    (Host.gather gather_S50000_S850000x1_S850000_n_0_n_n_0_1_1 (invSqrtDegree (F := F) e) (broadcastInDim S850000x1 ![0] bcast_S850000_S850000x1_0 (wrapIds (dstIds e))))

/-! ## One layer's aggregation, at the two feature widths -/

/-- Width 256: every list entry's source row, scaled by the entry's weight, added into its target row. -/
def aggregate256 (y : FVec F S50000x256 .f32) (e : IVec S2x800000 32) : FVec F S50000x256 .f32 :=
  Host.scatterAdd scatter_S50000x256_S850000x1_S850000x256_1_0_0_1 (broadcastInDim S50000x256 ![] bcast_S_S50000x256 (constant S_ .f32 0x00000000#32))
    (broadcastInDim S850000x1 ![0] bcast_S850000_S850000x1_0 (dstIds e))
    (mulf (Host.gather gather_S50000x256_S850000x1_S850000x256_1_0_n_n_0_1_1256 y (broadcastInDim S850000x1 ![0] bcast_S850000_S850000x1_0 (wrapIds (srcIds e))))
      (broadcastInDim S850000x256 ![0, 1] bcast_S850000x1_S850000x256_0_1 (broadcastInDim S850000x1 ![0] bcast_S850000_S850000x1_0 (edgeWeight (F := F) e))))

/-- Width 128: the same. -/
def aggregate128 (y : FVec F S50000x128 .f32) (e : IVec S2x800000 32) : FVec F S50000x128 .f32 :=
  Host.scatterAdd scatter_S50000x128_S850000x1_S850000x128_1_0_0_1 (broadcastInDim S50000x128 ![] bcast_S_S50000x128 (constant S_ .f32 0x00000000#32))
    (broadcastInDim S850000x1 ![0] bcast_S850000_S850000x1_0 (dstIds e))
    (mulf (Host.gather gather_S50000x128_S850000x1_S850000x128_1_0_n_n_0_1_1128 y (broadcastInDim S850000x1 ![0] bcast_S850000_S850000x1_0 (wrapIds (srcIds e))))
      (broadcastInDim S850000x128 ![0, 1] bcast_S850000x1_S850000x128_0_1 (broadcastInDim S850000x1 ![0] bcast_S850000_S850000x1_0 (edgeWeight (F := F) e))))

/-- The first layer after its product: aggregate, add the bias row, rectify. -/
def layer1 (y : FVec F S50000x256 .f32) (e : IVec S2x800000 32) (b : FVec F S256 .f32) : FVec F S50000x256 .f32 :=
  maximumf (addf (aggregate256 y e) (broadcastInDim S50000x256 ![0, 1] bcast_S1x256_S50000x256_0_1 (broadcastInDim S1x256 ![1] bcast_S256_S1x256_1 b)))
    (broadcastInDim S50000x256 ![] bcast_S_S50000x256 (constant S_ .f32 0x00000000#32))

/-- The second layer after its product: aggregate, add the bias row. -/
def layer2 (y : FVec F S50000x128 .f32) (e : IVec S2x800000 32) (b : FVec F S128 .f32) : FVec F S50000x128 .f32 :=
  addf (aggregate128 y e) (broadcastInDim S50000x128 ![0, 1] bcast_S1x128_S50000x128_0_1 (broadcastInDim S1x128 ![1] bcast_S128_S1x128_1 b))

/-! ## The two products -/

/-- `x · W1`: [50000, 128] times [128, 256]. -/
def dense1 (x : FVec F S50000x128 .f32) (w : FVec F S128x256 .f32) : FVec F S50000x256 .f32 :=
  Host.dotGeneral dot_S50000x128_S128x256_S50000x256_1_0_0_1_n_n none x w

/-- `h · W2`: [50000, 256] times [256, 128]. -/
def dense2 (x : FVec F S50000x256 .f32) (w : FVec F S256x128 .f32) : FVec F S50000x128 .f32 :=
  Host.dotGeneral dot_S50000x256_S256x128_S50000x128_1_0_0_1_n_n none x w

/-- The whole function of the six arguments. -/
def gcn (x : FVec F S50000x128 .f32) (e : IVec S2x800000 32) (w1 : FVec F S128x256 .f32) (b1 : FVec F S256 .f32)
    (w2 : FVec F S256x128 .f32) (b2 : FVec F S128 .f32) : FVec F S50000x128 .f32 :=
  layer2 (dense2 (layer1 (dense1 x w1) e b1) w2) e b2

end Cert.Gcn

end
-- ==== Proof.GcnDense.lean ====
/-
  The two matrix products of the graph convolution read at an entry.

  At the extended reals a host `dot_general` that contracts the left operand's columns with the right operand's rows is,
  at entry (r, c), the sum over the contracted coordinate k of left (r, k) times right (k, c): no rounding and no order
  is left in it. `rowAt1 i k` / `colAt1 i k` name those two operand entries for the first product (k < 128),
  `rowAt2` / `colAt2` for the second (k < 256).
-/
import proofs.«173897_j25778393710796_1_alg».proof.Proof.Gcn

noncomputable section

namespace Cert.Gcn

open Cert.ReferenceIdeal Cert.ReferenceIdeal.Gen Idealize.ShloMosaic Idealize.ShloMosaic.TcCoe

/-! ## The first product: [50000, 128] · [128, 256] -/

theorem d1_lhs_0 (i : S50000x256.Idx) (q : dot_S50000x128_S128x256_S50000x256_1_0_0_1_n_n.contr.Idx) :
    (dot_S50000x128_S128x256_S50000x256_1_0_0_1_n_n.lhsIdx i q 0).val = (i 0).val := by
  unfold DotDims.lhsIdx
  rw [dif_neg (show ¬(0 : Fin S50000x128.rank) ∈ dot_S50000x128_S128x256_S50000x256_1_0_0_1_n_n.lhsBatch by decide), dif_pos (show (0 : Fin S50000x128.rank) ∈ dot_S50000x128_S128x256_S50000x256_1_0_0_1_n_n.lhsNonContracting by decide)]
  rfl
theorem d1_lhs_1 (i : S50000x256.Idx) (q : dot_S50000x128_S128x256_S50000x256_1_0_0_1_n_n.contr.Idx) :
    (dot_S50000x128_S128x256_S50000x256_1_0_0_1_n_n.lhsIdx i q 1).val = (q ⟨0, by decide⟩).val :=
  dot_S50000x128_S128x256_S50000x256_1_0_0_1_n_n.lhsIdx_val_of_single rfl i q
theorem d1_rhs_0 (i : S50000x256.Idx) (q : dot_S50000x128_S128x256_S50000x256_1_0_0_1_n_n.contr.Idx) :
    (dot_S50000x128_S128x256_S50000x256_1_0_0_1_n_n.rhsIdx i q 0).val = (q ⟨0, by decide⟩).val :=
  dot_S50000x128_S128x256_S50000x256_1_0_0_1_n_n.rhsIdx_val_of_single rfl i q
theorem d1_rhs_1 (i : S50000x256.Idx) (q : dot_S50000x128_S128x256_S50000x256_1_0_0_1_n_n.contr.Idx) :
    (dot_S50000x128_S128x256_S50000x256_1_0_0_1_n_n.rhsIdx i q 1).val = (i 1).val := by
  unfold DotDims.rhsIdx
  rw [dif_neg (show ¬(1 : Fin S128x256.rank) ∈ dot_S50000x128_S128x256_S50000x256_1_0_0_1_n_n.rhsBatch by decide), dif_pos (show (1 : Fin S128x256.rank) ∈ dot_S50000x128_S128x256_S50000x256_1_0_0_1_n_n.rhsNonContracting by decide)]
  rfl

/-- Entry (row of `i`, `k`) of the left operand. -/
abbrev rowAt1 (i : S50000x256.Idx) (k : Fin 128) : S50000x128.Idx := fun a => match a with
  | ⟨0, _⟩ => ⟨(i 0).val, (i 0).isLt⟩
  | ⟨1, _⟩ => ⟨k.val, k.isLt⟩
/-- Entry (`k`, column of `i`) of the right operand. -/
abbrev colAt1 (i : S50000x256.Idx) (k : Fin 128) : S128x256.Idx := fun a => match a with
  | ⟨0, _⟩ => ⟨k.val, k.isLt⟩
  | ⟨1, _⟩ => ⟨(i 1).val, (i 1).isLt⟩

/-- `(x · w) (r, c) = ∑ k, x (r, k) · w (k, c)`. -/
theorem dense1_apply (x : FVec Ideal S50000x128 .f32) (w : FVec Ideal S128x256 .f32) (i : S50000x256.Idx) :
    dense1 (F := Ideal) x w i = ∑ k : Fin 128, x (rowAt1 i k) * w (colAt1 i k) := by
  unfold dense1
  simp only [Host.dotGeneral]
  rw [Ideal.dotGeneral_apply, ← Equiv.sum_comp (ValueIdx.contrEquiv1 dot_S50000x128_S128x256_S50000x256_1_0_0_1_n_n 128 rfl rfl).symm]
  refine Finset.sum_congr rfl fun k _ => ?_
  have hk := ValueIdx.contrEquiv1_symm_val dot_S50000x128_S128x256_S50000x256_1_0_0_1_n_n 128 rfl rfl k
  have el : dot_S50000x128_S128x256_S50000x256_1_0_0_1_n_n.lhsIdx i ((ValueIdx.contrEquiv1 dot_S50000x128_S128x256_S50000x256_1_0_0_1_n_n 128 rfl rfl).symm k) = rowAt1 i k := funext fun a => Fin.ext (by
    match a with
    | ⟨0, _⟩ => exact d1_lhs_0 _ _
    | ⟨1, _⟩ => exact (d1_lhs_1 _ _).trans hk)
  have er : dot_S50000x128_S128x256_S50000x256_1_0_0_1_n_n.rhsIdx i ((ValueIdx.contrEquiv1 dot_S50000x128_S128x256_S50000x256_1_0_0_1_n_n 128 rfl rfl).symm k) = colAt1 i k := funext fun a => Fin.ext (by
    match a with
    | ⟨0, _⟩ => exact (d1_rhs_0 _ _).trans hk
    | ⟨1, _⟩ => exact d1_rhs_1 _ _)
  rw [el, er]

/-! ## The second product: [50000, 256] · [256, 128] -/

theorem d2_lhs_0 (i : S50000x128.Idx) (q : dot_S50000x256_S256x128_S50000x128_1_0_0_1_n_n.contr.Idx) :
    (dot_S50000x256_S256x128_S50000x128_1_0_0_1_n_n.lhsIdx i q 0).val = (i 0).val := by
  unfold DotDims.lhsIdx
  rw [dif_neg (show ¬(0 : Fin S50000x256.rank) ∈ dot_S50000x256_S256x128_S50000x128_1_0_0_1_n_n.lhsBatch by decide), dif_pos (show (0 : Fin S50000x256.rank) ∈ dot_S50000x256_S256x128_S50000x128_1_0_0_1_n_n.lhsNonContracting by decide)]
  rfl
theorem d2_lhs_1 (i : S50000x128.Idx) (q : dot_S50000x256_S256x128_S50000x128_1_0_0_1_n_n.contr.Idx) :
    (dot_S50000x256_S256x128_S50000x128_1_0_0_1_n_n.lhsIdx i q 1).val = (q ⟨0, by decide⟩).val :=
  dot_S50000x256_S256x128_S50000x128_1_0_0_1_n_n.lhsIdx_val_of_single rfl i q
theorem d2_rhs_0 (i : S50000x128.Idx) (q : dot_S50000x256_S256x128_S50000x128_1_0_0_1_n_n.contr.Idx) :
    (dot_S50000x256_S256x128_S50000x128_1_0_0_1_n_n.rhsIdx i q 0).val = (q ⟨0, by decide⟩).val :=
  dot_S50000x256_S256x128_S50000x128_1_0_0_1_n_n.rhsIdx_val_of_single rfl i q
theorem d2_rhs_1 (i : S50000x128.Idx) (q : dot_S50000x256_S256x128_S50000x128_1_0_0_1_n_n.contr.Idx) :
    (dot_S50000x256_S256x128_S50000x128_1_0_0_1_n_n.rhsIdx i q 1).val = (i 1).val := by
  unfold DotDims.rhsIdx
  rw [dif_neg (show ¬(1 : Fin S256x128.rank) ∈ dot_S50000x256_S256x128_S50000x128_1_0_0_1_n_n.rhsBatch by decide), dif_pos (show (1 : Fin S256x128.rank) ∈ dot_S50000x256_S256x128_S50000x128_1_0_0_1_n_n.rhsNonContracting by decide)]
  rfl

/-- Entry (row of `i`, `k`) of the left operand. -/
abbrev rowAt2 (i : S50000x128.Idx) (k : Fin 256) : S50000x256.Idx := fun a => match a with
  | ⟨0, _⟩ => ⟨(i 0).val, (i 0).isLt⟩
  | ⟨1, _⟩ => ⟨k.val, k.isLt⟩
/-- Entry (`k`, column of `i`) of the right operand. -/
abbrev colAt2 (i : S50000x128.Idx) (k : Fin 256) : S256x128.Idx := fun a => match a with
  | ⟨0, _⟩ => ⟨k.val, k.isLt⟩
  | ⟨1, _⟩ => ⟨(i 1).val, (i 1).isLt⟩

/-- `(x · w) (r, c) = ∑ k, x (r, k) · w (k, c)`. -/
theorem dense2_apply (x : FVec Ideal S50000x256 .f32) (w : FVec Ideal S256x128 .f32) (i : S50000x128.Idx) :
    dense2 (F := Ideal) x w i = ∑ k : Fin 256, x (rowAt2 i k) * w (colAt2 i k) := by
  unfold dense2
  simp only [Host.dotGeneral]
  rw [Ideal.dotGeneral_apply, ← Equiv.sum_comp (ValueIdx.contrEquiv1 dot_S50000x256_S256x128_S50000x128_1_0_0_1_n_n 256 rfl rfl).symm]
  refine Finset.sum_congr rfl fun k _ => ?_
  have hk := ValueIdx.contrEquiv1_symm_val dot_S50000x256_S256x128_S50000x128_1_0_0_1_n_n 256 rfl rfl k
  have el : dot_S50000x256_S256x128_S50000x128_1_0_0_1_n_n.lhsIdx i ((ValueIdx.contrEquiv1 dot_S50000x256_S256x128_S50000x128_1_0_0_1_n_n 256 rfl rfl).symm k) = rowAt2 i k := funext fun a => Fin.ext (by
    match a with
    | ⟨0, _⟩ => exact d2_lhs_0 _ _
    | ⟨1, _⟩ => exact (d2_lhs_1 _ _).trans hk)
  have er : dot_S50000x256_S256x128_S50000x128_1_0_0_1_n_n.rhsIdx i ((ValueIdx.contrEquiv1 dot_S50000x256_S256x128_S50000x128_1_0_0_1_n_n 256 rfl rfl).symm k) = colAt2 i k := funext fun a => Fin.ext (by
    match a with
    | ⟨0, _⟩ => exact (d2_rhs_0 _ _).trans hk
    | ⟨1, _⟩ => exact d2_rhs_1 _ _)
  rw [el, er]

end Cert.Gcn

end
-- ==== Proof.Dense0.lean ====
/-
  The first pallas region computes the first product, `x · W1`, block row by block row.

  The region's grid has ten points. At point `t` the body loads rows `5000 t … 5000 t + 4999` of `x` (all 128
  columns) and the whole of `W1`, multiplies them on the matrix unit into a zero accumulator (the change of float format
  in front of the unit is the identity on extended reals), and stores the 5000 × 256 result as rows
  `5000 t … 5000 t + 4999` of the output array. Entry (p, q) of that block is `∑ k, x (5000 t + p, k) · W1 (k, q)`,
  which is entry (5000 t + p, q) of the whole product: each block written back is the matching block of `Gcn.dense1`, the
  ten blocks tile the 50000 rows, so the output array ends holding `Gcn.dense1` of the two arrays as the region found
  them. Stated for any contents `V` at the region's entry.
-/
import proofs.«173897_j25778393710796_1_alg».proof.Proof.Gen.KernelIdeal.Frame
import proofs.«173897_j25778393710796_1_alg».proof.Proof.GcnDense
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Dense0

open Cert.KernelIdeal Cert.KernelIdeal.Gen

/-! ## The body's product at an entry of the block -/

theorem blk_lhs_0 (j : S5000x256.Idx) (q : dot_S5000x128_S128x256_S5000x256_1_0_0_1_n_n.contr.Idx) :
    (dot_S5000x128_S128x256_S5000x256_1_0_0_1_n_n.lhsIdx j q 0).val = (j 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem blk_lhs_1 (j : S5000x256.Idx) (q : dot_S5000x128_S128x256_S5000x256_1_0_0_1_n_n.contr.Idx) :
    (dot_S5000x128_S128x256_S5000x256_1_0_0_1_n_n.lhsIdx j q 1).val = (q ⟨0, by decide⟩).val :=
  dot_S5000x128_S128x256_S5000x256_1_0_0_1_n_n.lhsIdx_val_of_single rfl j q
theorem blk_rhs_0 (j : S5000x256.Idx) (q : dot_S5000x128_S128x256_S5000x256_1_0_0_1_n_n.contr.Idx) :
    (dot_S5000x128_S128x256_S5000x256_1_0_0_1_n_n.rhsIdx j q 0).val = (q ⟨0, by decide⟩).val :=
  dot_S5000x128_S128x256_S5000x256_1_0_0_1_n_n.rhsIdx_val_of_single rfl j q
theorem blk_rhs_1 (j : S5000x256.Idx) (q : dot_S5000x128_S128x256_S5000x256_1_0_0_1_n_n.contr.Idx) :
    (dot_S5000x128_S128x256_S5000x256_1_0_0_1_n_n.rhsIdx j q 1).val = (j 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- Entry (row of `j`, `k`) of the loaded block of `x`. -/
abbrev rowIn (j : S5000x256.Idx) (k : Fin 128) : S5000x128.Idx := fun a => match a with
  | ⟨0, _⟩ => ⟨(j 0).val, (j 0).isLt⟩
  | ⟨1, _⟩ => ⟨k.val, k.isLt⟩
/-- Entry (`k`, column of `j`) of the loaded `W1`. -/
abbrev colIn (j : S5000x256.Idx) (k : Fin 128) : S128x256.Idx := fun a => match a with
  | ⟨0, _⟩ => ⟨k.val, k.isLt⟩
  | ⟨1, _⟩ => ⟨(j 1).val, (j 1).isLt⟩

/-- What the body stores, at entry (p, q) of the block: `∑ k, x₀ (p, k) · x₁ (k, q)` of the two loaded blocks. -/
theorem pay_apply (x0 : Vec Ideal S5000x128 .f32) (x1 : Vec Ideal S128x256 .f32) (j : S5000x256.Idx) :
    k0_pay1 (F := Ideal) x0 x1 j = ∑ k : Fin 128, x0 (rowIn j k) * x1 (colIn j k) := by
  unfold k0_pay1
  show FloatOps.matmul (F := Ideal) dot_S5000x128_S128x256_S5000x256_1_0_0_1_n_n none (truncf (F := Ideal) (φ := .f32) .bf16 x0 bitsLt_bf16_f32) (truncf (F := Ideal) (φ := .f32) .bf16 x1 bitsLt_bf16_f32) (constant (F := Ideal) S5000x256 .f32 0x00000000#32) j = _
  rw [Ideal.matmul_constant_zero_apply, ← Equiv.sum_comp (ValueIdx.contrEquiv1 dot_S5000x128_S128x256_S5000x256_1_0_0_1_n_n 128 rfl rfl).symm]
  refine Finset.sum_congr rfl fun k _ => ?_
  have hk := ValueIdx.contrEquiv1_symm_val dot_S5000x128_S128x256_S5000x256_1_0_0_1_n_n 128 rfl rfl k
  have el : dot_S5000x128_S128x256_S5000x256_1_0_0_1_n_n.lhsIdx j ((ValueIdx.contrEquiv1 dot_S5000x128_S128x256_S5000x256_1_0_0_1_n_n 128 rfl rfl).symm k) = rowIn j k := funext fun a => Fin.ext (by
    match a with
    | ⟨0, _⟩ => exact blk_lhs_0 _ _
    | ⟨1, _⟩ => exact (blk_lhs_1 _ _).trans hk)
  have er : dot_S5000x128_S128x256_S5000x256_1_0_0_1_n_n.rhsIdx j ((ValueIdx.contrEquiv1 dot_S5000x128_S128x256_S5000x256_1_0_0_1_n_n 128 rfl rfl).symm k) = colIn j k := funext fun a => Fin.ext (by
    match a with
    | ⟨0, _⟩ => exact (blk_rhs_0 _ _).trans hk
    | ⟨1, _⟩ => exact blk_rhs_1 _ _)
  rw [el, er]
  rfl

/-! ## The blocks as parts of the arrays -/

variable (V : (c : Dev nD) → (b : Ref sig .tc) → Buf (Elt Ideal) ((c : Thread nD τ).loc b))

/-- The array `x` as the region finds it. -/
abbrev xarr (c : Dev nD) : FVec Ideal S50000x128 .f32 := V c main_arg0
/-- The array `W1` as the region finds it. -/
abbrev warr (c : Dev nD) : FVec Ideal S128x256 .f32 := V c main_arg2
/-- The block of `x` the body loads at point `t`. -/
abbrev xblk (c : Dev nD) (t : Fin cfg0.N) : Vec Ideal S5000x128 .f32 := iblk0 V c 0 t
/-- The block of `W1` the body loads at point `t` (all of it). -/
abbrev wblk (c : Dev nD) (t : Fin cfg0.N) : Vec Ideal S128x256 .f32 := iblk0 V c 1 t

theorem hz : (![0, 0] : Fin 2 → Nat) = fun _ => 0 := funext fun a => by fin_cases a <;> rfl

/-- The printed index maps over the grid: the `x` window and the output window sit at block row `t`, block column 0;
    the `W1` window at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the loaded block of `x` at point `t` is row `5000 t + p` of `x`. -/
theorem xblk_apply (c : Dev nD) (t : Fin cfg0.N) (y : S5000x128.Idx) (i : S50000x128.Idx)
    (h0 : (i 0).val = 5000 * t.val + (y 0).val) (h1 : (i 1).val = (y 1).val) :
    xblk V c t y = xarr V c i := by
  obtain ⟨e00, e01, -, -, -, -⟩ := idx_facts t
  unfold xblk iblk0
  rw [View.read_apply]
  show V c main_arg0 _ = V c main_arg0 _
  refine congrArg (V c main_arg0) ?_
  funext a
  apply Fin.ext
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The loaded block of `W1` is `W1`. -/
theorem wblk_apply (c : Dev nD) (t : Fin cfg0.N) (y : S128x256.Idx) : wblk V c t y = warr V c y := by
  obtain ⟨-, -, e10, e11, -, -⟩ := idx_facts t
  unfold wblk iblk0
  rw [View.read_apply]
  show V c main_arg2 _ = V c main_arg2 _
  refine congrArg (V c main_arg2) ?_
  funext a
  apply Fin.ext
  match a with
  | ⟨0, _⟩ => show win0_1.index t (0 : Fin 2) * 128 + 1 * (y 0).val = (y 0).val; omega
  | ⟨1, _⟩ => show win0_1.index t (1 : Fin 2) * 256 + 1 * (y 1).val = (y 1).val; omega

/-! ## What a point writes back, the cover, the array after the region -/

/-- What point `t` writes back is block `t` of the whole product. -/
theorem flushed_eq (c : Dev nD) (t : Fin cfg0.N) :
    (dat0 V c).flushed 2 t = ((cfg0.win 2).blk t).view.read (Elt Ideal) (Cert.Gcn.dense1 (F := Ideal) (xarr V c) (warr V c)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x256) hz]
  obtain ⟨-, -, -, -, e20, e21⟩ := idx_facts t
  funext j
  show k0_pay1 (F := Ideal) (xblk V c t) (wblk V c t) j = Cert.Gcn.dense1 (F := Ideal) (xarr V c) (warr V c) (((cfg0.win 2).blk t).view.emb j)
  rw [pay_apply, Cert.Gcn.dense1_apply]
  refine Finset.sum_congr rfl fun k _ => ?_
  have hr : (((cfg0.win 2).blk t).view.emb j (0 : Fin 2)).val = 5000 * t.val + (j 0).val := by
    show win0_2.index t (0 : Fin 2) * 5000 + 1 * (j 0).val = _; omega
  have hc : (((cfg0.win 2).blk t).view.emb j (1 : Fin 2)).val = (j 1).val := by
    show win0_2.index t (1 : Fin 2) * 256 + 1 * (j 1).val = _; omega
  rw [xblk_apply V c t (rowIn j k) (Cert.Gcn.rowAt1 (((cfg0.win 2).blk t).view.emb j) k) hr rfl, wblk_apply V c t (colIn j k)]
  refine congrArg (xarr V c _ * warr V c ·) ?_
  funext a
  apply Fin.ext
  match a with
  | ⟨0, _⟩ => rfl
  | ⟨1, _⟩ => exact hc.symm

/-- Every entry of the output array lies in the block of the point that its row names. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 10 := N_0
  let t : Fin cfg0.N := ⟨(i 0).val / 5000, by rw [hN]; omega⟩
  obtain ⟨-, -, -, -, e20, e21⟩ := idx_facts t
  have ht : t.val = (i 0).val / 5000 := rfl
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- THE ARRAY after the region: the whole product of the two arrays as the region found them. -/
theorem final (c : Dev nD) : (dat0 V c).arrAt 2 cfg0.N = Cert.Gcn.dense1 (F := Ideal) (xarr V c) (warr V c) :=
  (dat0 V c).arrAt_eq_of_cover 2 (Cert.Gcn.dense1 (F := Ideal) (xarr V c) (warr V c)) (fun t _ => flushed_eq V c t) cover

end Cert.KernelIdeal.Dense0

end
-- ==== Proof.Dense1.lean ====
/-
  The second pallas region computes the second product, `h · W2`, block row by block row.

  Its grid has ten points. At point `t` the body loads rows `5000 t … 5000 t + 4999` of `h` (the first layer's
  output, all 256 columns; a shape cast to the same shape in front of the format change is the identity) and the whole
  of `W2`, multiplies them on the matrix unit into a zero accumulator, and stores the 5000 × 128 result as rows
  `5000 t … 5000 t + 4999` of the output array. Entry (p, q) of that block is `∑ k, h (5000 t + p, k) · W2 (k, q)`
  over the 256 values of k: entry (5000 t + p, q) of the whole product. The ten blocks tile the 50000 rows, so the
  output array ends holding `Gcn.dense2` of the two arrays as the region found them. Stated for any contents `V` at the
  region's entry.
-/
import proofs.«173897_j25778393710796_1_alg».proof.Proof.Gen.KernelIdeal.Frame
import proofs.«173897_j25778393710796_1_alg».proof.Proof.GcnDense
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Dense1

open Cert.KernelIdeal Cert.KernelIdeal.Gen

/-! ## The body's product at an entry of the block -/

theorem blk_lhs_0 (j : S5000x128.Idx) (q : dot_S5000x256_S256x128_S5000x128_1_0_0_1_n_n.contr.Idx) :
    (dot_S5000x256_S256x128_S5000x128_1_0_0_1_n_n.lhsIdx j q 0).val = (j 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem blk_lhs_1 (j : S5000x128.Idx) (q : dot_S5000x256_S256x128_S5000x128_1_0_0_1_n_n.contr.Idx) :
    (dot_S5000x256_S256x128_S5000x128_1_0_0_1_n_n.lhsIdx j q 1).val = (q ⟨0, by decide⟩).val :=
  dot_S5000x256_S256x128_S5000x128_1_0_0_1_n_n.lhsIdx_val_of_single rfl j q
theorem blk_rhs_0 (j : S5000x128.Idx) (q : dot_S5000x256_S256x128_S5000x128_1_0_0_1_n_n.contr.Idx) :
    (dot_S5000x256_S256x128_S5000x128_1_0_0_1_n_n.rhsIdx j q 0).val = (q ⟨0, by decide⟩).val :=
  dot_S5000x256_S256x128_S5000x128_1_0_0_1_n_n.rhsIdx_val_of_single rfl j q
theorem blk_rhs_1 (j : S5000x128.Idx) (q : dot_S5000x256_S256x128_S5000x128_1_0_0_1_n_n.contr.Idx) :
    (dot_S5000x256_S256x128_S5000x128_1_0_0_1_n_n.rhsIdx j q 1).val = (j 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Entry (row of `j`, `k`) of the loaded block of `h`. -/
abbrev rowIn (j : S5000x128.Idx) (k : Fin 256) : S5000x256.Idx := fun a => match a with
  | ⟨0, _⟩ => ⟨(j 0).val, (j 0).isLt⟩
  | ⟨1, _⟩ => ⟨k.val, k.isLt⟩
/-- Entry (`k`, column of `j`) of the loaded `W2`. -/
abbrev colIn (j : S5000x128.Idx) (k : Fin 256) : S256x128.Idx := fun a => match a with
  | ⟨0, _⟩ => ⟨k.val, k.isLt⟩
  | ⟨1, _⟩ => ⟨(j 1).val, (j 1).isLt⟩

/-- What the body stores, at entry (p, q) of the block: `∑ k, x₀ (p, k) · x₁ (k, q)` of the two loaded blocks. -/
theorem pay_apply (x0 : Vec Ideal S5000x256 .f32) (x1 : Vec Ideal S256x128 .f32) (j : S5000x128.Idx) :
    k1_pay1 (F := Ideal) x0 x1 j = ∑ k : Fin 256, x0 (rowIn j k) * x1 (colIn j k) := by
  unfold k1_pay1
  show FloatOps.matmul (F := Ideal) dot_S5000x256_S256x128_S5000x128_1_0_0_1_n_n none
      (truncf (F := Ideal) (φ := .f32) .bf16 (shapeCast S5000x256 x0 shapeCasts_S5000x256_S5000x256) bitsLt_bf16_f32)
      (truncf (F := Ideal) (φ := .f32) .bf16 x1 bitsLt_bf16_f32) (constant (F := Ideal) S5000x128 .f32 0x00000000#32) j = _
  rw [shapeCast_self, Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx j ((ValueIdx.contrEquiv1 dot_S5000x256_S256x128_S5000x128_1_0_0_1_n_n 256 rfl rfl).symm k) = rowIn j k := funext fun a => Fin.ext (by
    match a with
    | ⟨0, _⟩ => exact blk_lhs_0 _ _
    | ⟨1, _⟩ => exact (blk_lhs_1 _ _).trans hk)
  have er : dot_S5000x256_S256x128_S5000x128_1_0_0_1_n_n.rhsIdx j ((ValueIdx.contrEquiv1 dot_S5000x256_S256x128_S5000x128_1_0_0_1_n_n 256 rfl rfl).symm k) = colIn j k := funext fun a => Fin.ext (by
    match a with
    | ⟨0, _⟩ => exact (blk_rhs_0 _ _).trans hk
    | ⟨1, _⟩ => exact blk_rhs_1 _ _)
  rw [el, er]
  rfl

/-! ## The blocks as parts of the arrays -/

variable (V : (c : Dev nD) → (b : Ref sig .tc) → Buf (Elt Ideal) ((c : Thread nD τ).loc b))

/-- The array `h` (the first layer's output) as the region finds it. -/
abbrev harr (c : Dev nD) : FVec Ideal S50000x256 .f32 := V c main_v47
/-- The array `W2` as the region finds it. -/
abbrev warr (c : Dev nD) : FVec Ideal S256x128 .f32 := V c main_arg4
/-- The block of `h` the body loads at point `t`. -/
abbrev hblk (c : Dev nD) (t : Fin cfg1.N) : Vec Ideal S5000x256 .f32 := iblk1 V c 0 t
/-- The block of `W2` the body loads at point `t` (all of it). -/
abbrev wblk (c : Dev nD) (t : Fin cfg1.N) : Vec Ideal S256x128 .f32 := iblk1 V c 1 t

theorem hz : (![0, 0] : Fin 2 → Nat) = fun _ => 0 := funext fun a => by fin_cases a <;> rfl

/-- The printed index maps over the grid: the `h` window and the output window sit at block row `t`, block column 0;
    the `W2` window at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `p` of the loaded block of `h` at point `t` is row `5000 t + p` of `h`. -/
theorem hblk_apply (c : Dev nD) (t : Fin cfg1.N) (y : S5000x256.Idx) (i : S50000x256.Idx)
    (h0 : (i 0).val = 5000 * t.val + (y 0).val) (h1 : (i 1).val = (y 1).val) :
    hblk V c t y = harr V c i := by
  obtain ⟨e00, e01, -, -, -, -⟩ := idx_facts t
  unfold hblk iblk1
  rw [View.read_apply]
  show V c main_v47 _ = V c main_v47 _
  refine congrArg (V c main_v47) ?_
  funext a
  apply Fin.ext
  match a with
  | ⟨0, _⟩ => show win1_0.index t (0 : Fin 2) * 5000 + 1 * (y 0).val = (i 0).val; omega
  | ⟨1, _⟩ => show win1_0.index t (1 : Fin 2) * 256 + 1 * (y 1).val = (i 1).val; omega

/-- The loaded block of `W2` is `W2`. -/
theorem wblk_apply (c : Dev nD) (t : Fin cfg1.N) (y : S256x128.Idx) : wblk V c t y = warr V c y := by
  obtain ⟨-, -, e10, e11, -, -⟩ := idx_facts t
  unfold wblk iblk1
  rw [View.read_apply]
  show V c main_arg4 _ = V c main_arg4 _
  refine congrArg (V c main_arg4) ?_
  funext a
  apply Fin.ext
  match a with
  | ⟨0, _⟩ => show win1_1.index t (0 : Fin 2) * 256 + 1 * (y 0).val = (y 0).val; omega
  | ⟨1, _⟩ => show win1_1.index t (1 : Fin 2) * 128 + 1 * (y 1).val = (y 1).val; omega

/-! ## What a point writes back, the cover, the array after the region -/

/-- What point `t` writes back is block `t` of the whole product. -/
theorem flushed_eq (c : Dev nD) (t : Fin cfg1.N) :
    (dat1 V c).flushed 2 t = ((cfg1.win 2).blk t).view.read (Elt Ideal) (Cert.Gcn.dense2 (F := Ideal) (harr V c) (warr V c)) := by
  show (cfg1.win 2).cut (grid1.coords t) ((dat1 V c).after 2 t) = _
  rw [after1_2]
  unfold out1_2
  rw [View.canon_unit_zero hz]
  simp only [View.ld_unit_zero (S := S5000x256) hz, View.ld_unit_zero (S := S256x128) hz]
  obtain ⟨-, -, -, -, e20, e21⟩ := idx_facts t
  funext j
  show k1_pay1 (F := Ideal) (hblk V c t) (wblk V c t) j = Cert.Gcn.dense2 (F := Ideal) (harr V c) (warr V c) (((cfg1.win 2).blk t).view.emb j)
  rw [pay_apply, Cert.Gcn.dense2_apply]
  refine Finset.sum_congr rfl fun k _ => ?_
  have hr : (((cfg1.win 2).blk t).view.emb j (0 : Fin 2)).val = 5000 * t.val + (j 0).val := by
    show win1_2.index t (0 : Fin 2) * 5000 + 1 * (j 0).val = _; omega
  have hc : (((cfg1.win 2).blk t).view.emb j (1 : Fin 2)).val = (j 1).val := by
    show win1_2.index t (1 : Fin 2) * 128 + 1 * (j 1).val = _; omega
  rw [hblk_apply V c t (rowIn j k) (Cert.Gcn.rowAt2 (((cfg1.win 2).blk t).view.emb j) k) hr rfl, wblk_apply V c t (colIn j k)]
  refine congrArg (harr V c _ * warr V c ·) ?_
  funext a
  apply Fin.ext
  match a with
  | ⟨0, _⟩ => rfl
  | ⟨1, _⟩ => exact hc.symm

/-- Every entry of the output array lies in the block of the point that its row names. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, e20, e21⟩ := idx_facts t
  have ht : t.val = (i 0).val / 5000 := rfl
  refine ⟨t, flush1_2 t, ?_⟩
  show i ∈ ((View.whole main_v48).slice (win1_2.rect t)).set
  rw [View.set_slice_whole, Rect.mem_set_unit]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- THE ARRAY after the region: the whole product of the two arrays as the region found them. -/
theorem final (c : Dev nD) : (dat1 V c).arrAt 2 cfg1.N = Cert.Gcn.dense2 (F := Ideal) (harr V c) (warr V c) :=
  (dat1 V c).arrAt_eq_of_cover 2 (Cert.Gcn.dense2 (F := Ideal) (harr V c) (warr V c)) (fun t _ => flushed_eq V c t) cover

end Cert.KernelIdeal.Dense1

end
-- ==== Proof.KernelValue.lean ====
/-
  The idealized kernel program's result is the graph convolution of its arguments.

  The program is: the first pallas region; host operations; the second pallas region; host operations. The contents of
  the TensorCore's buffers at each boundary are a fold from the launch memory. Read backwards from the result buffer:
  the last host stretch applies `Gcn.layer2` to the second region's output array, the edge list and the second bias;
  the second region leaves `Gcn.dense2` of the first layer's output and `W2` in its output array; the first host stretch
  applies `Gcn.layer1` to the first region's output array, the edge list and the first bias; the first region leaves
  `Gcn.dense1` of `x` and `W1`. No host operation and no region writes an argument array, so each argument is read at
  its launch contents wherever it is read.
-/
import proofs.«173897_j25778393710796_1_alg».proof.Proof.Gen.KernelIdeal.Frame
import proofs.«173897_j25778393710796_1_alg».proof.Proof.Gcn
import proofs.«173897_j25778393710796_1_alg».proof.Proof.Dense0
import proofs.«173897_j25778393710796_1_alg».proof.Proof.Dense1
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.KernelValue

open Cert.KernelIdeal Cert.KernelIdeal.Gen

variable {F : FTy → Type} [FloatOps F]
variable (m : (ℓ : Loc nD τ sig) → Buf (Elt F) ℓ) (ρ : Dev nD → PrngReg)

/-- A host stretch keeps a buffer none of its operations writes. -/
macro "stretch_keeps" : tactic =>
  `(tactic| (refine StableHlo.after_of_forall_not_mem _ _ (List.forall_iff_forall_mem.mp ?_)
             simp only [hostOps1, hostOps1_1, hostOps1_2, hostOps1_3, hostOps2, hostOps2_1, hostOps2_2, List.Forall,
               StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

/-! ## The arguments where they are read -/

/-- Across the first host stretch (between the regions) the argument arrays keep their contents. -/
theorem W5_keeps (c : Dev nD) (r : Ref sig .tc) (hr : r = main_arg1 ∨ r = main_arg3 ∨ r = main_arg4 ∨ r = main_arg5) :
    W5 m ρ c (Proc.devRef .tc r) = W1 m ρ c (Proc.devRef .tc r) := by
  rcases hr with rfl | rfl | rfl | rfl <;>
  exact
    calc W5 m ρ c (Proc.devRef .tc _)
      _ = W4 m ρ c (Proc.devRef .tc _) := by stretch_keeps
      _ = W3 m ρ c (Proc.devRef .tc _) := by stretch_keeps
      _ = W2 m ρ c (Proc.devRef .tc _) := by stretch_keeps
      _ = W1 m ρ c (Proc.devRef .tc _) := by stretch_keeps

theorem W1_main_arg1 (c : Dev nD) : W1 m ρ c (Proc.devRef .tc main_arg1) = m ((c : Thread nD τ).loc main_arg1) :=
  W1_of_ne m ρ c main_arg1 (by decide)
theorem W1_main_arg3 (c : Dev nD) : W1 m ρ c (Proc.devRef .tc main_arg3) = m ((c : Thread nD τ).loc main_arg3) :=
  W1_of_ne m ρ c main_arg3 (by decide)
theorem W5_main_arg4 (c : Dev nD) : W5 m ρ c (Proc.devRef .tc main_arg4) = m ((c : Thread nD τ).loc main_arg4) :=
  (W5_keeps m ρ c main_arg4 (.inr (.inr (.inl rfl)))).trans (W1_of_ne m ρ c main_arg4 (by decide))
theorem W6_main_arg1 (c : Dev nD) : W6 m ρ c (Proc.devRef .tc main_arg1) = m ((c : Thread nD τ).loc main_arg1) :=
  (W6_of_ne m ρ c main_arg1 (by decide)).trans ((W5_keeps m ρ c main_arg1 (.inl rfl)).trans (W1_main_arg1 m ρ c))
theorem W6_main_arg5 (c : Dev nD) : W6 m ρ c (Proc.devRef .tc main_arg5) = m ((c : Thread nD τ).loc main_arg5) :=
  (W6_of_ne m ρ c main_arg5 (by decide)).trans ((W5_keeps m ρ c main_arg5 (.inr (.inr (.inr rfl)))).trans (W1_of_ne m ρ c main_arg5 (by decide)))

/-! ## The two host stretches -/

set_option maxHeartbeats 4000000 in
/-- The host operations between the regions: `Gcn.layer1` of the first region's output array, the edge list, the first bias. -/
theorem stretch1 (c : Dev nD) :
    W5 m ρ c (Proc.devRef .tc main_v47)
      = Cert.Gcn.layer1 (F := F) (W1 m ρ c (Proc.devRef .tc main_v0)) (W1 m ρ c (Proc.devRef .tc main_arg1)) (W1 m ρ c (Proc.devRef .tc main_arg3)) := by
  show StableHlo.after hostOps1_3 (StableHlo.after hostOps1_2 (StableHlo.after hostOps1_1 (StableHlo.after hostOps1 (W1 m ρ c)))) (Proc.devRef .tc main_v47) = _
  simp only [hostOps1, hostOps1_1, hostOps1_2, hostOps1_3]
  after_results_simp
  unfold Cert.Gcn.layer1 Cert.Gcn.aggregate256 Cert.Gcn.edgeWeight Cert.Gcn.invSqrtDegree Cert.Gcn.degree Cert.Gcn.wrapIds Cert.Gcn.srcIds Cert.Gcn.dstIds
  rfl

set_option maxHeartbeats 4000000 in
/-- The host operations after the second region: `Gcn.layer2` of its output array, the edge list, the second bias. -/
theorem stretch2 (c : Dev nD) :
    W9 m ρ c (Proc.devRef .tc main_v94)
      = Cert.Gcn.layer2 (F := F) (W6 m ρ c (Proc.devRef .tc main_v48)) (W6 m ρ c (Proc.devRef .tc main_arg1)) (W6 m ρ c (Proc.devRef .tc main_arg5)) := by
  show StableHlo.after hostOps2_2 (StableHlo.after hostOps2_1 (StableHlo.after hostOps2 (W6 m ρ c))) (Proc.devRef .tc main_v94) = _
  simp only [hostOps2, hostOps2_1, hostOps2_2]
  after_results_simp
  unfold Cert.Gcn.layer2 Cert.Gcn.aggregate128 Cert.Gcn.edgeWeight Cert.Gcn.invSqrtDegree Cert.Gcn.degree Cert.Gcn.wrapIds Cert.Gcn.srcIds Cert.Gcn.dstIds
  rfl

end Cert.KernelIdeal.KernelValue

namespace Cert.KernelIdeal.KernelValue

open Cert.KernelIdeal Cert.KernelIdeal.Gen

variable (m : (ℓ : Loc nD τ sig) → Buf (Elt Ideal) ℓ) (ρ : Dev nD → PrngReg)

/-! ## The two regions, and the whole -/

/-- The first region's output array at its exit: `x · W1`. -/
theorem region0 (c : Dev nD) :
    W1 m ρ c (Proc.devRef .tc main_v0)
      = Cert.Gcn.dense1 (F := Ideal) (m ((c : Thread nD τ).loc main_arg0)) (m ((c : Thread nD τ).loc main_arg2)) :=
  (W1_arr m ρ c 2).trans (Cert.KernelIdeal.Dense0.final (V0 m ρ) c)

/-- The second region's output array at its exit: the first layer's output times `W2`. -/
theorem region1 (c : Dev nD) :
    W6 m ρ c (Proc.devRef .tc main_v48)
      = Cert.Gcn.dense2 (F := Ideal) (W5 m ρ c (Proc.devRef .tc main_v47)) (m ((c : Thread nD τ).loc main_arg4)) :=
  (W6_arr m ρ c 2).trans ((Cert.KernelIdeal.Dense1.final (V5 m ρ) c).trans (by
    show Cert.Gcn.dense2 (F := Ideal) (W5 m ρ c (Proc.devRef .tc main_v47)) (W5 m ρ c (Proc.devRef .tc main_arg4)) = _
    rw [W5_main_arg4]))

/-- THE RESULT: the last boundary's contents at the result buffer are `Gcn.gcn` of the launch contents of the arguments. -/
theorem result (c : Dev nD) :
    W9 m ρ c (Proc.devRef .tc main_v94)
      = Cert.Gcn.gcn (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [stretch2, region1, stretch1, region0, W6_main_arg1, W6_main_arg5, W1_main_arg1, W1_main_arg3]
  rfl

end Cert.KernelIdeal.KernelValue

end
-- ==== Proof.RefValue.lean ====
/-
  The reference's result is the graph convolution of its arguments.

  The reference program is a straight line of host operations; its run ends with the result buffer at the operations'
  composed term of the six argument arrays. That term is, operation for operation, `Gcn.gcn` of the arguments with every
  named piece (`srcIds`, `dstIds`, `degree`, `invSqrtDegree`, `edgeWeight`, the two aggregations, the two layers, the two
  products) written out in place: the two sides are the same term once the names are opened.
-/
import proofs.«173897_j25778393710796_1_alg».proof.Proof.RefRun
import proofs.«173897_j25778393710796_1_alg».proof.Proof.Gcn

noncomputable section

namespace Cert.ReferenceIdeal.RefValue

open Cert.ReferenceIdeal Cert.ReferenceIdeal.Gen Cert.ReferenceIdeal.RunCopy Idealize.ShloMosaic Idealize.ShloMosaic.TcCoe Idealize.SL.Sem

variable {F : FTy → Type} [FloatOps F]

set_option maxRecDepth 8192 in
/-- The composed term of the reference's run is `Gcn.gcn` of the argument arrays. -/
theorem res_eq_gcn (m : (ℓ : Loc nD τ sig) → Buf (Elt F) ℓ) (c : Dev nD) :
    res_main_v94 m c
      = Cert.Gcn.gcn (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold res_main_v94 Cert.Gcn.gcn Cert.Gcn.layer2 Cert.Gcn.layer1 Cert.Gcn.dense1 Cert.Gcn.dense2 Cert.Gcn.aggregate128 Cert.Gcn.aggregate256
    Cert.Gcn.edgeWeight Cert.Gcn.invSqrtDegree Cert.Gcn.degree Cert.Gcn.wrapIds Cert.Gcn.srcIds Cert.Gcn.dstIds
  rfl

end Cert.ReferenceIdeal.RefValue

end
-- ==== Proof.lean ====
/-
  Two-layer graph convolution: the Pallas program against its jnp reference, over the extended reals.

  Both programs compute `out = A · relu(A · (x · W1) + b1) · W2 + b2`, where `A` is the degree-normalised adjacency of
  the edge list with self loops, applied by gather, scale and scatter-add (Proof/Gcn.lean names every piece). They differ
  in one thing only: the reference takes the two products `x · W1` and `h · W2` as whole host `dot_general`s, the kernel
  program takes each in a pallas region of ten grid points, each point multiplying a block of 5000 rows by the whole
  weight matrix on the matrix unit (after a change of float format, the identity on extended reals) into a zero
  accumulator. A row block of a product is the product of the row block, and the ten blocks tile the rows
  (Proof/Dense0.lean, Proof/Dense1.lean); so each region leaves the whole product in its output array, and the host
  operations around the regions, the same in both programs, are applied to equal arrays (Proof/KernelValue.lean for the
  kernel program's boundary contents, Proof/RefValue.lean for the reference's composed term). No law of arithmetic beyond
  re-indexing a finite sum is used, so the finiteness of the inputs is never opened.

  The three frames: the two kernel programs' are the generated frame certificates; the reference has no kernel, and its
  frame is its run with the result dropped. The idealization rewrote nothing, so `preserves` asks nothing.
-/
import proofs.«173897_j25778393710796_1_alg».proof.Defs
import proofs.«173897_j25778393710796_1_alg».proof.Proof.Gen.Kernel
import proofs.«173897_j25778393710796_1_alg».proof.Proof.Gen.Kernel.Skeleton
import proofs.«173897_j25778393710796_1_alg».proof.Proof.Gen.Kernel.Launch
import proofs.«173897_j25778393710796_1_alg».proof.Proof.Gen.Kernel.Points
import proofs.«173897_j25778393710796_1_alg».proof.Proof.Gen.Kernel.Frame
import proofs.«173897_j25778393710796_1_alg».proof.Proof.Gen.KernelIdeal
import proofs.«173897_j25778393710796_1_alg».proof.Proof.Gen.KernelIdeal.Skeleton
import proofs.«173897_j25778393710796_1_alg».proof.Proof.Gen.KernelIdeal.Launch
import proofs.«173897_j25778393710796_1_alg».proof.Proof.Gen.KernelIdeal.Points
import proofs.«173897_j25778393710796_1_alg».proof.Proof.Gen.KernelIdeal.Frame
import proofs.«173897_j25778393710796_1_alg».proof.Proof.Gen.ReferenceIdeal
import proofs.«173897_j25778393710796_1_alg».proof.Proof.Gen.Pre_finite_inputs
import proofs.«173897_j25778393710796_1_alg».proof.Proof.KernelRun
import proofs.«173897_j25778393710796_1_alg».proof.Proof.KernelValue
import proofs.«173897_j25778393710796_1_alg».proof.Proof.RefRun
import proofs.«173897_j25778393710796_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.RunCopy.run (F := Ideal) m ρ)

/-- Both programs end with the result array at `Gcn.gcn` of the six argument arrays, which agree. -/
theorem algebraic : Cert.algebraic_KernelIdeal_ReferenceIdeal := by
  intro m ρ m' ρ' _ hagree
  refine ⟨fun c => Cert.Gcn.gcn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KernelValue.result m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.RunCopy.run (F := Ideal) m' ρ')
    rw [Cert.ReferenceIdeal.RefValue.res_eq_gcn]
    obtain ⟨h0, h1, h2, h3, h4, h5⟩ := hagree c
    rw [h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
